-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S327680x4 : Shape := ⟨2, ![327680, 4]⟩
abbrev S8x48 : Shape := ⟨2, ![8, 48]⟩
abbrev S2097152x4 : Shape := ⟨2, ![2097152, 4]⟩
abbrev S_ : Shape := ⟨0, ![]⟩

class Facts : Prop where
  bcast_S_S327680x4 : S_.BroadcastsInDim S327680x4 (![] : Fin 0 → Fin S327680x4.rank)
  reducesTo_S327680x4_S_d0_1 : S327680x4.ReducesTo [0, 1] S_
  h_S_ : 0 < S_.numel
  bcast_S_S8x48 : S_.BroadcastsInDim S8x48 (![] : Fin 0 → Fin S8x48.rank)
  reducesTo_S8x48_S_d0_1 : S8x48.ReducesTo [0, 1] S_

variable [Facts]

def fn {F : FTy → Type} [FloatOps F] (main_arg0 : FVec F S327680x4 .f32) (main_arg1 : FVec F S8x48 .f32) (main_arg2 : IVec S2097152x4 32) (main_arg3 : IVec S2097152x4 32) : IVec S_ 1 :=
  let main_v0 : FVec F S327680x4 .f32 := Host.absf main_arg0
  let main_cst : FVec F S_ .f32 := constant S_ .f32 0x7F800000#32
  let main_v1 : FVec F S327680x4 .f32 := broadcastInDim S327680x4 ![] bcast_S_S327680x4 main_cst
  let main_v2 : IVec S327680x4 1 := cmpf .olt main_v0 main_v1
  let main_c : IVec S_ 1 := constantI S_ 1 1#1
  let main_v3 : IVec S_ 1 := (fun x v => Host.reduce IntOp.andi x v reducesTo_S327680x4_S_d0_1 h_S_) main_v2 main_c
  let main_v4 : FVec F S8x48 .f32 := Host.absf main_arg1
  let main_cst_0 : FVec F S_ .f32 := constant S_ .f32 0x7F800000#32
  let main_v5 : FVec F S8x48 .f32 := broadcastInDim S8x48 ![] bcast_S_S8x48 main_cst_0
  let main_v6 : IVec S8x48 1 := cmpf .olt main_v4 main_v5
  let main_c_1 : IVec S_ 1 := constantI S_ 1 1#1
  let main_v7 : IVec S_ 1 := (fun x v => Host.reduce IntOp.andi x v reducesTo_S8x48_S_d0_1 h_S_) main_v6 main_c_1
  let main_v8 : IVec S_ 1 := andi main_v3 main_v7
  main_v8
-- ==== Kernel.lean ====
abbrev S327680x4 : Shape := ⟨2, ![327680, 4]⟩
abbrev S8x48 : Shape := ⟨2, ![8, 48]⟩
abbrev S2097152x4 : Shape := ⟨2, ![2097152, 4]⟩
abbrev S65536x4 : Shape := ⟨2, ![65536, 4]⟩
abbrev S262144x4 : Shape := ⟨2, ![262144, 4]⟩
abbrev S4 : Shape := ⟨1, ![4]⟩
abbrev S1x4 : Shape := ⟨2, ![1, 4]⟩
abbrev S_ : Shape := ⟨0, ![]⟩
abbrev S2097152x4x1 : Shape := ⟨3, ![2097152, 4, 1]⟩
abbrev S2097152x4x2 : Shape := ⟨3, ![2097152, 4, 2]⟩
abbrev S2097152x8 : Shape := ⟨2, ![2097152, 8]⟩
abbrev S2097152x48 : Shape := ⟨2, ![2097152, 48]⟩
abbrev S32768x8 : Shape := ⟨2, ![32768, 8]⟩
abbrev S32768x48 : Shape := ⟨2, ![32768, 48]⟩

abbrev nBuf : Space → Nat
  | .hbm => 52
  | .vmem => 5
  | .smem => 0
  | _ => 0

abbrev bufTy : (tb : Table) → Fin (tcTables nBuf tb) → BufTy
  | .hbm, ⟨0, _⟩ => ⟨S327680x4, .f32⟩
  | .hbm, ⟨1, _⟩ => ⟨S8x48, .f32⟩
  | .hbm, ⟨2, _⟩ => ⟨S2097152x4, .i32⟩
  | .hbm, ⟨3, _⟩ => ⟨S2097152x4, .i32⟩
  | .hbm, ⟨4, _⟩ => ⟨S65536x4, .f32⟩
  | .hbm, ⟨5, _⟩ => ⟨S262144x4, .f32⟩
  | .hbm, ⟨6, _⟩ => ⟨S4, .i32⟩
  | .hbm, ⟨7, _⟩ => ⟨S1x4, .i32⟩
  | .hbm, ⟨8, _⟩ => ⟨S_, .i32⟩
  | .hbm, ⟨9, _⟩ => ⟨S2097152x4, .i32⟩
  | .hbm, ⟨10, _⟩ => ⟨S2097152x4, .i1⟩
  | .hbm, ⟨11, _⟩ => ⟨S_, .i32⟩
  | .hbm, ⟨12, _⟩ => ⟨S2097152x4, .i32⟩
  | .hbm, ⟨13, _⟩ => ⟨S2097152x4, .i32⟩
  | .hbm, ⟨14, _⟩ => ⟨S2097152x4, .i32⟩
  | .hbm, ⟨15, _⟩ => ⟨S_, .i32⟩
  | .hbm, ⟨16, _⟩ => ⟨S1x4, .i32⟩
  | .hbm, ⟨17, _⟩ => ⟨S1x4, .i1⟩
  | .hbm, ⟨18, _⟩ => ⟨S_, .i32⟩
  | .hbm, ⟨19, _⟩ => ⟨S1x4, .i32⟩
  | .hbm, ⟨20, _⟩ => ⟨S1x4, .i32⟩
  | .hbm, ⟨21, _⟩ => ⟨S1x4, .i32⟩
  | .hbm, ⟨22, _⟩ => ⟨S2097152x4, .i32⟩
  | .hbm, ⟨23, _⟩ => ⟨S2097152x4x1, .i32⟩
  | .hbm, ⟨24, _⟩ => ⟨S2097152x4x1, .i32⟩
  | .hbm, ⟨25, _⟩ => ⟨S2097152x4x2, .i32⟩
  | .hbm, ⟨26, _⟩ => ⟨S2097152x4, .f32⟩
  | .hbm, ⟨27, _⟩ => ⟨S4, .i32⟩
  | .hbm, ⟨28, _⟩ => ⟨S1x4, .i32⟩
  | .hbm, ⟨29, _⟩ => ⟨S_, .i32⟩
  | .hbm, ⟨30, _⟩ => ⟨S2097152x4, .i32⟩
  | .hbm, ⟨31, _⟩ => ⟨S2097152x4, .i1⟩
  | .hbm, ⟨32, _⟩ => ⟨S_, .i32⟩
  | .hbm, ⟨33, _⟩ => ⟨S2097152x4, .i32⟩
  | .hbm, ⟨34, _⟩ => ⟨S2097152x4, .i32⟩
  | .hbm, ⟨35, _⟩ => ⟨S2097152x4, .i32⟩
  | .hbm, ⟨36, _⟩ => ⟨S_, .i32⟩
  | .hbm, ⟨37, _⟩ => ⟨S1x4, .i32⟩
  | .hbm, ⟨38, _⟩ => ⟨S1x4, .i1⟩
  | .hbm, ⟨39, _⟩ => ⟨S_, .i32⟩
  | .hbm, ⟨40, _⟩ => ⟨S1x4, .i32⟩
  | .hbm, ⟨41, _⟩ => ⟨S1x4, .i32⟩
  | .hbm, ⟨42, _⟩ => ⟨S1x4, .i32⟩
  | .hbm, ⟨43, _⟩ => ⟨S2097152x4, .i32⟩
  | .hbm, ⟨44, _⟩ => ⟨S2097152x4x1, .i32⟩
  | .hbm, ⟨45, _⟩ => ⟨S2097152x4x1, .i32⟩
  | .hbm, ⟨46, _⟩ => ⟨S2097152x4x2, .i32⟩
  | .hbm, ⟨47, _⟩ => ⟨S2097152x4, .f32⟩
  | .hbm, ⟨48, _⟩ => ⟨S2097152x8, .f32⟩
  | .hbm, ⟨49, _⟩ => ⟨S2097152x8, .bf16⟩
  | .hbm, ⟨50, _⟩ => ⟨S8x48, .bf16⟩
  | .hbm, ⟨51, _⟩ => ⟨S2097152x48, .f32⟩
  | .local _ .vmem, ⟨0, _⟩ => ⟨S32768x8, .bf16⟩
  | .local _ .vmem, ⟨1, _⟩ => ⟨S32768x8, .bf16⟩
  | .local _ .vmem, ⟨2, _⟩ => ⟨S8x48, .bf16⟩
  | .local _ .vmem, ⟨3, _⟩ => ⟨S32768x48, .f32⟩
  | .local _ .vmem, ⟨4, _⟩ => ⟨S32768x48, .f32⟩
  | _, _ => ⟨S327680x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32768x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S327680x4_S65536x4_0_0 : S327680x4.Slices ![0, 0] S65536x4
  slices_S327680x4_S262144x4_65536_0 : S327680x4.Slices ![65536, 0] S262144x4
  bcast_S4_S1x4_1 : S4.BroadcastsInDim S1x4 (![1] : Fin 1 → Fin S1x4.rank)
  bcast_S_S2097152x4 : S_.BroadcastsInDim S2097152x4 (![] : Fin 0 → Fin S2097152x4.rank)
  bcast_S_S1x4 : S_.BroadcastsInDim S1x4 (![] : Fin 0 → Fin S1x4.rank)
  bcast_S1x4_S2097152x4_0_1 : S1x4.BroadcastsInDim S2097152x4 (![0, 1] : Fin 2 → Fin S2097152x4.rank)
  bcast_S2097152x4_S2097152x4x1_0_1 : S2097152x4.BroadcastsInDim S2097152x4x1 (![0, 1] : Fin 2 → Fin S2097152x4x1.rank)
  concatenates_S2097152x4x1_S2097152x4x1_S2097152x4x2_d2 : Shape.Concatenates [S2097152x4x1, S2097152x4x1] S2097152x4x2 2
  concatenates_S2097152x4_S2097152x4_S2097152x8_d1 : Shape.Concatenates [S2097152x4, S2097152x4] S2097152x8 1
  bitsLt_bf16_f32 : FTy.bits .bf16 < FTy.bits .f32
  inb_S32768x8_S32768x8_0_0 : ∀ a, (![0, 0] : Fin 2 → Nat) a + S32768x8.size a ≤ S32768x8.size a
  h_S32768x8 : 0 < S32768x8.numel
  shapeCasts_S32768x8_S32768x8 : S32768x8.ShapeCasts S32768x8
  inb_S8x48_S8x48_0_0 : ∀ a, (![0, 0] : Fin 2 → Nat) a + S8x48.size a ≤ S8x48.size a
  h_S8x48 : 0 < S8x48.numel
  shapeCasts_S8x48_S8x48 : S8x48.ShapeCasts S8x48
  inb_S32768x48_S32768x48_0_0 : ∀ a, (![0, 0] : Fin 2 → Nat) a + S32768x48.size a ≤ S32768x48.size a
  h_S32768x48 : 0 < S32768x48.numel
  gather_S65536x4_S2097152x4x2_S2097152x4_n_01_n_n_01_2_11_wf : GatherDims.WF S65536x4 S2097152x4x2 S2097152x4 [] [0, 1] [] [0, 1] [] 2 ![1, 1]
  gather_S262144x4_S2097152x4x2_S2097152x4_n_01_n_n_01_2_11_wf : GatherDims.WF S262144x4 S2097152x4x2 S2097152x4 [] [0, 1] [] [0, 1] [] 2 ![1, 1]
  dot_S32768x8_S8x48_S32768x48_1_0_0_1_n_n_wf : DotDims.WF S32768x8 S8x48 S32768x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x8.size a ≤ S2097152x8.size a
  hwx0_0 : ∀ i : grid0.Coords, EltTy.bits .bf16 = 32 ∨ (Rect.block (s := S2097152x8) S32768x8.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x48.size a ≤ S8x48.size a
  hwx0_1 : ∀ i : grid0.Coords, EltTy.bits .bf16 = 32 ∨ (Rect.block (s := S8x48) S8x48.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32768x48.size a ≤ S2097152x48.size a
  hwx0_2 : ∀ i : grid0.Coords, EltTy.bits .f32 = 32 ∨ (Rect.block (s := S2097152x48) S32768x48.size (cc0_transform_2 i) (hinb0_2 i)).WholeWords (EltTy.packing .f32)

variable [Facts₀]

def gather_S65536x4_S2097152x4x2_S2097152x4_n_01_n_n_01_2_11 : GatherDims S65536x4 S2097152x4x2 S2097152x4 where
  offsetDims := []
  collapsedSliceDims := [0, 1]
  operandBatchingDims := []
  startIndicesBatchingDims := []
  startIndexMap := [0, 1]
  indexVectorDim := 2
  sliceSizes := ![1, 1]
  wf := gather_S65536x4_S2097152x4x2_S2097152x4_n_01_n_n_01_2_11_wf
def gather_S262144x4_S2097152x4x2_S2097152x4_n_01_n_n_01_2_11 : GatherDims S262144x4 S2097152x4x2 S2097152x4 where
  offsetDims := []
  collapsedSliceDims := [0, 1]
  operandBatchingDims := []
  startIndicesBatchingDims := []
  startIndexMap := [0, 1]
  indexVectorDim := 2
  sliceSizes := ![1, 1]
  wf := gather_S262144x4_S2097152x4x2_S2097152x4_n_01_n_n_01_2_11_wf
def dot_S32768x8_S8x48_S32768x48_1_0_0_1_n_n : DotDims S32768x8 S8x48 S32768x48 where
  lhsContracting := [1]
  rhsContracting := [0]
  lhsNonContracting := [0]
  rhsNonContracting := [1]
  lhsBatch := []
  rhsBatch := []
  wf := dot_S32768x8_S8x48_S32768x48_1_0_0_1_n_n_wf

abbrev win0_0 : Pipeline.Window sig grid0 :=
  Pipeline.Window.ofSpec (Memref.whole main_v37) S32768x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S8x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S32768x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S327680x4 : Shape := ⟨2, ![327680, 4]⟩
abbrev S8x48 : Shape := ⟨2, ![8, 48]⟩
abbrev S2097152x4 : Shape := ⟨2, ![2097152, 4]⟩
abbrev S65536x4 : Shape := ⟨2, ![65536, 4]⟩
abbrev S262144x4 : Shape := ⟨2, ![262144, 4]⟩
abbrev S4 : Shape := ⟨1, ![4]⟩
abbrev S1x4 : Shape := ⟨2, ![1, 4]⟩
abbrev S_ : Shape := ⟨0, ![]⟩
abbrev S2097152x4x1 : Shape := ⟨3, ![2097152, 4, 1]⟩
abbrev S2097152x4x2 : Shape := ⟨3, ![2097152, 4, 2]⟩
abbrev S2097152x8 : Shape := ⟨2, ![2097152, 8]⟩
abbrev S2097152x48 : Shape := ⟨2, ![2097152, 48]⟩

abbrev nBuf : Space → Nat
  | .hbm => 50
  | .vmem => 0
  | .smem => 0
  | _ => 0

abbrev bufTy : (tb : Table) → Fin (tcTables nBuf tb) → BufTy
  | .hbm, ⟨0, _⟩ => ⟨S327680x4, .f32⟩
  | .hbm, ⟨1, _⟩ => ⟨S8x48, .f32⟩
  | .hbm, ⟨2, _⟩ => ⟨S2097152x4, .i32⟩
  | .hbm, ⟨3, _⟩ => ⟨S2097152x4, .i32⟩
  | .hbm, ⟨4, _⟩ => ⟨S65536x4, .f32⟩
  | .hbm, ⟨5, _⟩ => ⟨S262144x4, .f32⟩
  | .hbm, ⟨6, _⟩ => ⟨S4, .i32⟩
  | .hbm, ⟨7, _⟩ => ⟨S1x4, .i32⟩
  | .hbm, ⟨8, _⟩ => ⟨S_, .i32⟩
  | .hbm, ⟨9, _⟩ => ⟨S2097152x4, .i32⟩
  | .hbm, ⟨10, _⟩ => ⟨S2097152x4, .i1⟩
  | .hbm, ⟨11, _⟩ => ⟨S_, .i32⟩
  | .hbm, ⟨12, _⟩ => ⟨S2097152x4, .i32⟩
  | .hbm, ⟨13, _⟩ => ⟨S2097152x4, .i32⟩
  | .hbm, ⟨14, _⟩ => ⟨S2097152x4, .i32⟩
  | .hbm, ⟨15, _⟩ => ⟨S_, .i32⟩
  | .hbm, ⟨16, _⟩ => ⟨S1x4, .i32⟩
  | .hbm, ⟨17, _⟩ => ⟨S1x4, .i1⟩
  | .hbm, ⟨18, _⟩ => ⟨S_, .i32⟩
  | .hbm, ⟨19, _⟩ => ⟨S1x4, .i32⟩
  | .hbm, ⟨20, _⟩ => ⟨S1x4, .i32⟩
  | .hbm, ⟨21, _⟩ => ⟨S1x4, .i32⟩
  | .hbm, ⟨22, _⟩ => ⟨S2097152x4, .i32⟩
  | .hbm, ⟨23, _⟩ => ⟨S2097152x4x1, .i32⟩
  | .hbm, ⟨24, _⟩ => ⟨S2097152x4x1, .i32⟩
  | .hbm, ⟨25, _⟩ => ⟨S2097152x4x2, .i32⟩
  | .hbm, ⟨26, _⟩ => ⟨S2097152x4, .f32⟩
  | .hbm, ⟨27, _⟩ => ⟨S4, .i32⟩
  | .hbm, ⟨28, _⟩ => ⟨S1x4, .i32⟩
  | .hbm, ⟨29, _⟩ => ⟨S_, .i32⟩
  | .hbm, ⟨30, _⟩ => ⟨S2097152x4, .i32⟩
  | .hbm, ⟨31, _⟩ => ⟨S2097152x4, .i1⟩
  | .hbm, ⟨32, _⟩ => ⟨S_, .i32⟩
  | .hbm, ⟨33, _⟩ => ⟨S2097152x4, .i32⟩
  | .hbm, ⟨34, _⟩ => ⟨S2097152x4, .i32⟩
  | .hbm, ⟨35, _⟩ => ⟨S2097152x4, .i32⟩
  | .hbm, ⟨36, _⟩ => ⟨S_, .i32⟩
  | .hbm, ⟨37, _⟩ => ⟨S1x4, .i32⟩
  | .hbm, ⟨38, _⟩ => ⟨S1x4, .i1⟩
  | .hbm, ⟨39, _⟩ => ⟨S_, .i32⟩
  | .hbm, ⟨40, _⟩ => ⟨S1x4, .i32⟩
  | .hbm, ⟨41, _⟩ => ⟨S1x4, .i32⟩
  | .hbm, ⟨42, _⟩ => ⟨S1x4, .i32⟩
  | .hbm, ⟨43, _⟩ => ⟨S2097152x4, .i32⟩
  | .hbm, ⟨44, _⟩ => ⟨S2097152x4x1, .i32⟩
  | .hbm, ⟨45, _⟩ => ⟨S2097152x4x1, .i32⟩
  | .hbm, ⟨46, _⟩ => ⟨S2097152x4x2, .i32⟩
  | .hbm, ⟨47, _⟩ => ⟨S2097152x4, .f32⟩
  | .hbm, ⟨48, _⟩ => ⟨S2097152x8, .f32⟩
  | .hbm, ⟨49, _⟩ => ⟨S2097152x48, .f32⟩
  | _, _ => ⟨S327680x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  slices_S327680x4_S65536x4_0_0 : S327680x4.Slices ![0, 0] S65536x4
  slices_S327680x4_S262144x4_65536_0 : S327680x4.Slices ![65536, 0] S262144x4
  bcast_S4_S1x4_1 : S4.BroadcastsInDim S1x4 (![1] : Fin 1 → Fin S1x4.rank)
  bcast_S_S2097152x4 : S_.BroadcastsInDim S2097152x4 (![] : Fin 0 → Fin S2097152x4.rank)
  bcast_S_S1x4 : S_.BroadcastsInDim S1x4 (![] : Fin 0 → Fin S1x4.rank)
  bcast_S1x4_S2097152x4_0_1 : S1x4.BroadcastsInDim S2097152x4 (![0, 1] : Fin 2 → Fin S2097152x4.rank)
  bcast_S2097152x4_S2097152x4x1_0_1 : S2097152x4.BroadcastsInDim S2097152x4x1 (![0, 1] : Fin 2 → Fin S2097152x4x1.rank)
  concatenates_S2097152x4x1_S2097152x4x1_S2097152x4x2_d2 : Shape.Concatenates [S2097152x4x1, S2097152x4x1] S2097152x4x2 2
  concatenates_S2097152x4_S2097152x4_S2097152x8_d1 : Shape.Concatenates [S2097152x4, S2097152x4] S2097152x8 1
  gather_S65536x4_S2097152x4x2_S2097152x4_n_01_n_n_01_2_11_wf : GatherDims.WF S65536x4 S2097152x4x2 S2097152x4 [] [0, 1] [] [0, 1] [] 2 ![1, 1]
  gather_S262144x4_S2097152x4x2_S2097152x4_n_01_n_n_01_2_11_wf : GatherDims.WF S262144x4 S2097152x4x2 S2097152x4 [] [0, 1] [] [0, 1] [] 2 ![1, 1]
  dot_S2097152x8_S8x48_S2097152x48_1_0_0_1_n_n_wf : DotDims.WF S2097152x8 S8x48 S2097152x48 [1] [0] [0] [1] [] []

variable [Facts₀]

def gather_S65536x4_S2097152x4x2_S2097152x4_n_01_n_n_01_2_11 : GatherDims S65536x4 S2097152x4x2 S2097152x4 where
  offsetDims := []
  collapsedSliceDims := [0, 1]
  operandBatchingDims := []
  startIndicesBatchingDims := []
  startIndexMap := [0, 1]
  indexVectorDim := 2
  sliceSizes := ![1, 1]
  wf := gather_S65536x4_S2097152x4x2_S2097152x4_n_01_n_n_01_2_11_wf
def gather_S262144x4_S2097152x4x2_S2097152x4_n_01_n_n_01_2_11 : GatherDims S262144x4 S2097152x4x2 S2097152x4 where
  offsetDims := []
  collapsedSliceDims := [0, 1]
  operandBatchingDims := []
  startIndicesBatchingDims := []
  startIndexMap := [0, 1]
  indexVectorDim := 2
  sliceSizes := ![1, 1]
  wf := gather_S262144x4_S2097152x4x2_S2097152x4_n_01_n_n_01_2_11_wf
def dot_S2097152x8_S8x48_S2097152x48_1_0_0_1_n_n : DotDims S2097152x8 S8x48 S2097152x48 where
  lhsContracting := [1]
  rhsContracting := [0]
  lhsNonContracting := [0]
  rhsNonContracting := [1]
  lhsBatch := []
  rhsBatch := []
  wf := dot_S2097152x8_S8x48_S2097152x48_1_0_0_1_n_n_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Head.lean ====
/-
  The linear head of the hashed encoding, as one function of its two operands.

  A feature array with one row per sample and eight columns is multiplied by an 8 × 48 weight matrix:
  entry (n, q) of the result is  ∑ i < 8, feature (n, i) · weight (i, q).  Both programs end in this
  product — one computes it tile by tile over blocks of 32768 rows, the other in one piece — and over
  the extended reals both give exactly this sum, so no property of the summands is needed.
-/
import proofs.«122707_j73443940761815_1_alg».proof.Proof.LibPlainDot

noncomputable section

open scoped BigOperators

namespace HashHead

open Idealize.ShloMosaic Idealize.ShloMosaic.ValueIdx

/-- Entry (n, q) of features times weights: the sum over the eight feature columns. -/
def head (X : (⟨2, ![2097152, 8]⟩ : Shape).Idx → EReal) (Wm : (⟨2, ![8, 48]⟩ : Shape).Idx → EReal) :
    (⟨2, ![2097152, 48]⟩ : Shape).Idx → EReal :=
  fun j => ∑ i : Fin 8, X (ix2 (j 0) i) * Wm (ix2 i (j 1))

theorem head_apply (X : (⟨2, ![2097152, 8]⟩ : Shape).Idx → EReal) (Wm : (⟨2, ![8, 48]⟩ : Shape).Idx → EReal)
    (n : Fin 2097152) (q : Fin 48) :
    head X Wm (ix2 n q) = ∑ i : Fin 8, X (ix2 n i) * Wm (ix2 i q) := rfl

/-- The whole-array product on the host is the head: its dimension numbers contract the features' columns with the
    weights' rows. -/
theorem dotGeneral_eq_head {d : DotDims ⟨2, ![2097152, 8]⟩ ⟨2, ![8, 48]⟩ ⟨2, ![2097152, 48]⟩} (h : PlainDot.IsPlain d)
    (prec : Option ContractPrecision) (X : FVec Ideal ⟨2, ![2097152, 8]⟩ .f32) (Wm : FVec Ideal ⟨2, ![8, 48]⟩ .f32) :
    Host.dotGeneral d prec X Wm = head X Wm := by
  funext j
  obtain ⟨n, q, rfl⟩ : ∃ (n : Fin 2097152) (q : Fin 48), j = ix2 n q := ⟨j 0, j 1, eq_ix2 j⟩
  exact PlainDot.dotGeneral_apply h prec .single X Wm n q

/-- One tile's product into a zero accumulator, at row p of the tile and column q: the same eight-term sum over the
    tile's rows. -/
theorem tile_apply {d : DotDims ⟨2, ![32768, 8]⟩ ⟨2, ![8, 48]⟩ ⟨2, ![32768, 48]⟩} (h : PlainDot.IsPlain d)
    (prec : Option ContractPrecision) (x : FVec Ideal ⟨2, ![32768, 8]⟩ .bf16) (w : FVec Ideal ⟨2, ![8, 48]⟩ .bf16)
    (p : Fin 32768) (q : Fin 48) :
    matmul d prec x w (constant ⟨2, ![32768, 48]⟩ .f32 0x00000000#32) (ix2 p q) = ∑ i : Fin 8, x (ix2 p i) * w (ix2 i q) :=
  PlainDot.matmul_zero_apply h prec x w p q

end HashHead

end
-- ==== Proof.Feats.lean ====
/-
  The hashed features, as one function of the stacked codebook and the two index maps.

  The codebook array stacks two tables: rows 0 … 65535 are the first table, the 262144 rows after them the second.
  Sample n has four indices into each table, one per column, and its eight features are
      feature (n, i)     = first table  (map₀ (n, i), i)      for i < 4,
      feature (n, 4 + i) = second table (map₁ (n, i), i)      for i < 4,
  where a negative index counts from the table's end (one wrap by the table's height) and the lookup itself then
  clamps whatever is still out of range.  Both programs build this array with the same host operations before
  their products, so it is named once here and never opened: what it holds plays no part in the comparison.
-/
import proofs.«122707_j73443940761815_1_alg».proof.ReferenceIdeal

noncomputable section

namespace Cert.ReferenceIdeal.Hashed

open Cert.ReferenceIdeal Cert.ReferenceIdeal.Facts₀ Idealize.ShloMosaic

variable {F : FTy → Type} [FloatOps F] [Facts]

/-- An index map with its negative entries wrapped once by the table's height `h`. -/
def wrapped (h : BitVec 32) (idx : IVec S2097152x4 32) : IVec S2097152x4 32 :=
  select (cmpi .slt idx (broadcastInDim S2097152x4 ![] bcast_S_S2097152x4 (constantI S_ 32 0#32)))
    (addi idx (broadcastInDim S2097152x4 ![] bcast_S_S2097152x4 (constantI S_ 32 h))) idx

/-- The column numbers 0, 1, 2, 3 as a one-row array (the wrap by 4 never fires on them). -/
def columns : IVec S1x4 32 :=
  select (cmpi .slt (broadcastInDim S1x4 ![1] bcast_S4_S1x4_1 (iotaInDim S4 32 0)) (broadcastInDim S1x4 ![] bcast_S_S1x4 (constantI S_ 32 0#32)))
    (addi (broadcastInDim S1x4 ![1] bcast_S4_S1x4_1 (iotaInDim S4 32 0)) (broadcastInDim S1x4 ![] bcast_S_S1x4 (constantI S_ 32 4#32)))
    (broadcastInDim S1x4 ![1] bcast_S4_S1x4_1 (iotaInDim S4 32 0))

/-- The (row, column) pairs a lookup reads: at (n, i) the pair (wrapped index (n, i), i). -/
def pairs (h : BitVec 32) (idx : IVec S2097152x4 32) : IVec S2097152x4x2 32 :=
  concatenate S2097152x4x2 2
    [⟨S2097152x4x1, (broadcastInDim S2097152x4x1 ![0, 1] bcast_S2097152x4_S2097152x4x1_0_1 (wrapped h idx))⟩,
     ⟨S2097152x4x1, (broadcastInDim S2097152x4x1 ![0, 1] bcast_S2097152x4_S2097152x4x1_0_1
        (broadcastInDim S2097152x4 ![0, 1] bcast_S1x4_S2097152x4_0_1 columns))⟩]
    concatenates_S2097152x4x1_S2097152x4x1_S2097152x4x2_d2

/-- The feature array: the first table's lookups in columns 0 … 3, the second table's in columns 4 … 7. -/
def feats (codes : FVec F S327680x4 .f32) (map0 map1 : IVec S2097152x4 32) : FVec F S2097152x8 .f32 :=
  concatenate S2097152x8 1
    [⟨S2097152x4, (Host.gather gather_S65536x4_S2097152x4x2_S2097152x4_n_01_n_n_01_2_11
        (extractStridedSlice S65536x4 ![0, 0] codes slices_S327680x4_S65536x4_0_0) (pairs 65536#32 map0))⟩,
     ⟨S2097152x4, (Host.gather gather_S262144x4_S2097152x4x2_S2097152x4_n_01_n_n_01_2_11
        (extractStridedSlice S262144x4 ![65536, 0] codes slices_S327680x4_S262144x4_65536_0) (pairs 262144#32 map1))⟩]
    concatenates_S2097152x4_S2097152x4_S2097152x8_d1

end Cert.ReferenceIdeal.Hashed

end
-- ==== Proof.KernelEntry.lean ====
/-
  The two arrays the kernel's region stages, as functions of the arguments.

  Before its one region the kernel's program runs the host operations that build the feature array, then changes the
  float format of the features and of the weights.  Over the extended reals a change of format is the identity, so the
  region finds the feature array itself (Proof/Feats.lean) and the weight argument itself.
-/
import proofs.«122707_j73443940761815_1_alg».proof.Proof.Gen.KernelIdeal.Frame
import proofs.«122707_j73443940761815_1_alg».proof.Proof.Gen.ReferenceIdeal
import proofs.«122707_j73443940761815_1_alg».proof.Proof.Feats
import Idealize.ShloMosaic.PureOps.Ideal
import Idealize.ShloMosaic.Lib.StableHlo.Run

noncomputable section

namespace Cert.KernelIdeal.HeadValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- The array the first window stages is the feature array of the arguments: the host operations in front of the
    region, composed, are the feature array's own definition followed by the identity. -/
theorem feats_at_entry (c : Dev nD) :
    (V m c main_v37 : S2097152x8.Idx → EReal)
      = Cert.ReferenceIdeal.Hashed.feats (F := Ideal) (m ((c : Thread nD τ).loc main_arg0))
          (m ((c : Thread nD τ).loc main_arg2)) (m ((c : Thread nD τ).loc main_arg3)) := by
  dsimp only [V, hostOps0]
  after_results_simp
  rfl

/-- The array the second window stages is the weight argument. -/
theorem weights_at_entry (c : Dev nD) :
    (V m c main_v38 : S8x48.Idx → EReal) = m ((c : Thread nD τ).loc main_arg1) := by
  dsimp only [V, hostOps0]
  after_results
  rfl

end Cert.KernelIdeal.HeadValue

end
-- ==== Proof.KernelValue.lean ====
/-
  What the tiled kernel leaves in its result array, over the extended reals.

  The grid has 64 points.  Point t stages rows 32768·t … 32768·t + 32767 of the feature array (all eight columns) and
  the whole 8 × 48 weight matrix, multiplies them into a zero accumulator and writes the 32768 × 48 product back as
  rows 32768·t … of the result.  A change of float format is the identity over the extended reals, so the staged
  arrays are the features and the weights themselves.  Entry (p, q) of tile t's product is the eight-term sum
  ∑ i, feature (32768·t + p, i) · weight (i, q): the head's entry (32768·t + p, q).  The 64 tiles cover every row
  (row r lies in tile r / 32768), so the result array ends as the head of the features and the weights.
-/
import proofs.«122707_j73443940761815_1_alg».proof.Proof.Gen.KernelIdeal.Value
import proofs.«122707_j73443940761815_1_alg».proof.Proof.Gen.ReferenceIdeal
import proofs.«122707_j73443940761815_1_alg».proof.Proof.Head
import proofs.«122707_j73443940761815_1_alg».proof.Proof.Feats
import proofs.«122707_j73443940761815_1_alg».proof.Proof.KernelEntry

noncomputable section

open scoped BigOperators

namespace Cert.KernelIdeal.HeadValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One tile -/

/-- The feature array and the weight matrix as the region finds them, as plain arrays of extended reals. -/
abbrev featArr (c : Dev nD) : FVec Ideal S2097152x8 .bf16 := V m c main_v37
abbrev wArr (c : Dev nD) : FVec Ideal S8x48 .bf16 := V m c main_v38

/-- The tile product contracts the features' columns with the weights' rows. -/
theorem tile_dims : PlainDot.IsPlain dot_S32768x8_S8x48_S32768x48_1_0_0_1_n_n := ⟨rfl, rfl, rfl, rfl, rfl, rfl⟩

/-- What the body stores, at row p and column q of the tile: the eight-term sum over the staged blocks. -/
theorem tile_entry (x : FVec Ideal S32768x8 .bf16) (w : FVec Ideal S8x48 .bf16) (p : Fin 32768) (q : Fin 48) :
    k0_pay1 (F := Ideal) x w (ix2 p q) = ∑ i : Fin 8, x (ix2 p i) * w (ix2 i q) := by
  show matmul dot_S32768x8_S8x48_S32768x48_1_0_0_1_n_n none (shapeCast S32768x8 x _) (shapeCast S8x48 w _)
    (constant S32768x48 .f32 0x00000000#32) (ix2 p q) = _
  rw [shapeCast_self, shapeCast_self]
  exact HashHead.tile_apply tile_dims none x w p q

/-- The printed index maps over the 64 points: the feature window and the result window move together along the rows,
    one block per point; every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem hz : (![0, 0] : Fin 2 → Nat) = fun _ => 0 := funext fun a => by fin_cases a <;> rfl

/-- Row p of tile t is row 32768·t + p of the whole array. -/
def rowOf (t : Fin cfg0.N) (p : Fin 32768) : Fin 2097152 :=
  ⟨t.val * 32768 + p.val, by have h1 : t.val < cfg0.N := t.isLt; have h2 : cfg0.N = 64 := N_0; have h3 := p.isLt; omega⟩

/-- Where the three windows' blocks at point t sit in their arrays. -/
theorem feat_blk (t : Fin cfg0.N) (p : Fin 32768) (i : Fin 8) :
    ((cfg0.win 0).blk t).view.emb (ix2 p i) = ix2 (rowOf t p) i := by
  obtain ⟨e00, e01, e10, e11, e20, e21⟩ := idx_facts t
  funext a; apply Fin.ext
  match a with
  | ⟨0, _⟩ => show win0_0.index t (0 : Fin 2) * 32768 + 1 * p.val = t.val * 32768 + p.val; omega
  | ⟨1, _⟩ => show win0_0.index t (1 : Fin 2) * 8 + 1 * i.val = i.val; omega

theorem wts_blk (t : Fin cfg0.N) (i : Fin 8) (q : Fin 48) :
    ((cfg0.win 1).blk t).view.emb (ix2 i q) = ix2 i q := by
  obtain ⟨e00, e01, e10, e11, e20, e21⟩ := idx_facts t
  funext a; apply Fin.ext
  match a with
  | ⟨0, _⟩ => show win0_1.index t (0 : Fin 2) * 8 + 1 * i.val = i.val; omega
  | ⟨1, _⟩ => show win0_1.index t (1 : Fin 2) * 48 + 1 * q.val = q.val; omega

theorem out_blk (t : Fin cfg0.N) (p : Fin 32768) (q : Fin 48) :
    ((cfg0.win 2).blk t).view.emb (ix2 p q) = ix2 (rowOf t p) q := by
  obtain ⟨e00, e01, e10, e11, e20, e21⟩ := idx_facts t
  funext a; apply Fin.ext
  match a with
  | ⟨0, _⟩ => show win0_2.index t (0 : Fin 2) * 32768 + 1 * p.val = t.val * 32768 + p.val; omega
  | ⟨1, _⟩ => show win0_2.index t (1 : Fin 2) * 48 + 1 * q.val = q.val; omega

/-- The staged blocks at point t, read at an entry, are the arrays' entries at the block's place. -/
theorem feat_read (c : Dev nD) (t : Fin cfg0.N) (p : Fin 32768) (i : Fin 8) :
    (iblk m c 0 t : FVec Ideal S32768x8 .bf16) (ix2 p i) = featArr m c (ix2 (rowOf t p) i) := by
  show V m c main_v37 (((cfg0.win 0).blk t).view.emb (ix2 p i)) = V m c main_v37 (ix2 (rowOf t p) i)
  rw [feat_blk]

theorem wts_read (c : Dev nD) (t : Fin cfg0.N) (i : Fin 8) (q : Fin 48) :
    (iblk m c 1 t : FVec Ideal S8x48 .bf16) (ix2 i q) = wArr m c (ix2 i q) := by
  show V m c main_v38 (((cfg0.win 1).blk t).view.emb (ix2 i q)) = V m c main_v38 (ix2 i q)
  rw [wts_blk]

/-- WHAT POINT t WRITES BACK is block t of the head of the staged arrays. -/
theorem flushed_eq (c : Dev nD) (t : Fin cfg0.N) :
    (dats m 0 c).flushed 2 t
      = ((cfg0.win 2).blk t).view.read (Elt Ideal) (HashHead.head (featArr m c) (wArr m c)) := by
  rw [Value.flushed2]
  unfold out0_2
  rw [View.canon_unit_zero hz]
  simp only [View.ld_unit_zero (S := S32768x8) hz, View.ld_unit_zero (S := S8x48) hz]
  funext j
  obtain ⟨p, q, rfl⟩ : ∃ (p : Fin 32768) (q : Fin 48), j = ix2 p q := ⟨j 0, j 1, eq_ix2 j⟩
  show k0_pay1 (F := Ideal) (iblk m c 0 t) (iblk m c 1 t) (ix2 p q)
    = HashHead.head (featArr m c) (wArr m c) (((cfg0.win 2).blk t).view.emb (ix2 p q))
  refine (tile_entry (iblk m c 0 t) (iblk m c 1 t) p q).trans ?_
  rw [out_blk, HashHead.head_apply]
  exact Finset.sum_congr rfl fun i _ => by rw [feat_read, wts_read]

/-! ## The 64 tiles cover the result array -/

/-- An index of the result array is in point t's block iff each coordinate is in the block's range on its axis. -/
theorem mem_blk (t : Fin cfg0.N) (i : S2097152x48.Idx) :
    i ∈ ((cfg0.win 2).blk t).view.set ↔ ∀ a : Fin 2, win0_2.index t a * S32768x48.size a ≤ (i a).val ∧ (i a).val < win0_2.index t a * S32768x48.size a + S32768x48.size a := by
  show i ∈ ((View.whole main_v39).slice (win0_2.rect t)).set ↔ _
  rw [View.set_slice_whole, Rect.mem_set_unit]
  exact Iff.rfl

/-- Row r of the result lies in the block of point r / 32768. -/
theorem cover (i : S2097152x48.Idx) : ∃ t : Fin cfg0.N, (cfg0.win 2).flush t = true ∧ i ∈ ((cfg0.win 2).blk t).view.set := by
  have hi0 : (i 0).val < 2097152 := (i 0).isLt
  have hi1 : (i 1).val < 48 := (i 1).isLt
  have hN : cfg0.N = 64 := N_0
  obtain ⟨t, ht⟩ : ∃ t : Fin cfg0.N, t.val = (i 0).val / 32768 := ⟨⟨(i 0).val / 32768, by omega⟩, rfl⟩
  obtain ⟨e00, e01, e10, e11, e20, e21⟩ := idx_facts t
  refine ⟨t, flush0_2 t, ?_⟩
  rw [mem_blk]
  intro a
  match a with
  | ⟨0, _⟩ => show win0_2.index t (0 : Fin 2) * 32768 ≤ (i 0).val ∧ (i 0).val < win0_2.index t (0 : Fin 2) * 32768 + 32768; omega
  | ⟨1, _⟩ => show win0_2.index t (1 : Fin 2) * 48 ≤ (i 1).val ∧ (i 1).val < win0_2.index t (1 : Fin 2) * 48 + 48; omega

/-- THE RESULT ARRAY after the run: the head of the staged feature and weight arrays. -/
theorem final (c : Dev nD) :
    (dats m 0 c).arrAt 2 cfg0.N = HashHead.head (featArr m c) (wArr m c) :=
  (dats m 0 c).arrAt_eq_of_cover 2 (HashHead.head (featArr m c) (wArr m c)) (fun t _ => flushed_eq m c t) cover

/-! ## The run, read -/

/-- Every run of the kernel's program ends with the result array at the head of the arguments' feature array and
    the weight argument, the arguments unchanged. -/
theorem run : θ_run defs (onTc (τ := τ) (main (F := Ideal))) ⟨m, fun _ => 0, ρ⟩ fun r => ∀ c : Dev nD,
      r.2.mem ((c : Thread nD τ).loc main_v39)
        = HashHead.head (Cert.ReferenceIdeal.Hashed.feats (F := Ideal) (m ((c : Thread nD τ).loc main_arg0))
            (m ((c : Thread nD τ).loc main_arg2)) (m ((c : Thread nD τ).loc main_arg3))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      show HashHead.head (V m c main_v37) (V m c main_v38) = _
      rw [feats_at_entry m c, weights_at_entry m c])), (h c).2⟩)
    (Value.run_blocks m ρ)

end Cert.KernelIdeal.HeadValue

end
-- ==== Proof.RefValue.lean ====
/-
  What the reference leaves in its result array, over the extended reals.

  The reference builds the same feature array with the same host operations and multiplies it by the weights in one
  piece; its dimension numbers contract the features' eight columns with the weights' eight rows, so entry (n, q) is
  the eight-term sum ∑ i, feature (n, i) · weight (i, q): the head.
-/
import proofs.«122707_j73443940761815_1_alg».proof.Proof.Gen.ReferenceIdeal.Run
import proofs.«122707_j73443940761815_1_alg».proof.Proof.Head
import proofs.«122707_j73443940761815_1_alg».proof.Proof.Feats

noncomputable section

namespace Cert.ReferenceIdeal.HeadValue

open Cert.ReferenceIdeal Cert.ReferenceIdeal.Gen Idealize.ShloMosaic Idealize.ShloMosaic.TcCoe Idealize.SL.Sem

/-- The whole-array product contracts the features' columns with the weights' rows. -/
theorem dot_dims : PlainDot.IsPlain dot_S2097152x8_S8x48_S2097152x48_1_0_0_1_n_n := ⟨rfl, rfl, rfl, rfl, rfl, rfl⟩

/-- The reference's result term is the head of the feature array and the weights. -/
theorem result_eq (codes : FVec Ideal S327680x4 .f32) (wts : FVec Ideal S8x48 .f32) (map0 map1 : IVec S2097152x4 32) :
    Host.dotGeneral dot_S2097152x8_S8x48_S2097152x48_1_0_0_1_n_n none (Hashed.feats (F := Ideal) codes map0 map1) wts
      = HashHead.head (Hashed.feats (F := Ideal) codes map0 map1) wts :=
  HashHead.dotGeneral_eq_head dot_dims none _ wts

/-- Every run of the reference ends with the result array at the head of the arguments' feature array and the weight
    argument, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37)
        = HashHead.head (Hashed.feats (F := Ideal) (m ((c.tc : Thread nD τ).loc main_arg0))
            (m ((c.tc : Thread nD τ).loc main_arg2)) (m ((c.tc : Thread nD τ).loc main_arg3))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq (m ((c.tc : Thread nD τ).loc main_arg0))
      (m ((c.tc : Thread nD τ).loc main_arg1)) (m ((c.tc : Thread nD τ).loc main_arg2)) (m ((c.tc : Thread nD τ).loc main_arg3))), (h c).2⟩)
    (Cert.ReferenceIdeal.Value.run (F := Ideal) m ρ)

end Cert.ReferenceIdeal.HeadValue

end
-- ==== Proof.lean ====
/-
  A hashed embedding lookup followed by a bias-free linear head, tiled against whole.

  Both programs gather eight features per sample out of two stacked codebooks — with the same host operations, so the
  feature array is one shared function of the arguments (Proof/Feats.lean) — and multiply the 2097152 × 8 feature
  array by the 8 × 48 weights.  The kernel does the product tile by tile, 64 tiles of 32768 rows, after a change of
  float format that is the identity over the extended reals (Proof/KernelValue.lean); the reference does it in one
  piece (Proof/RefValue.lean).  Entry (n, q) is the same eight-term sum ∑ i, feature (n, i) · weight (i, q) on both
  sides (Proof/Head.lean), summed over the same index in the same order: no law of arithmetic and no finiteness of
  the inputs is used.  The three frames are the kernels' generated frames and the reference's run with its result
  dropped; the idealization rewrote nothing, so there is nothing to preserve.
-/
import proofs.«122707_j73443940761815_1_alg».proof.Defs
import proofs.«122707_j73443940761815_1_alg».proof.Proof.Gen.Kernel.Frame
import proofs.«122707_j73443940761815_1_alg».proof.Proof.Gen.KernelIdeal.Frame
import proofs.«122707_j73443940761815_1_alg».proof.Proof.Gen.ReferenceIdeal
import proofs.«122707_j73443940761815_1_alg».proof.Proof.Gen.Pre_finite_inputs
import proofs.«122707_j73443940761815_1_alg».proof.Proof.KernelValue
import proofs.«122707_j73443940761815_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.HeadValue.run m ρ)

/-- Both runs end at the head of the SAME feature array and weights once the arguments agree. -/
theorem algebraic : Cert.algebraic_KernelIdeal_ReferenceIdeal := by
  intro m ρ m' ρ' _ hagree
  refine ⟨_, Cert.KernelIdeal.HeadValue.run m ρ, ?_⟩
  refine (θ_run Cert.ReferenceIdeal.defs _ _).mono (fun _ h c => ⟨(h c).1.trans ?_, (h c).2⟩)
    (Cert.ReferenceIdeal.HeadValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
